-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S4096x256 .f32) (main_arg1 : FVec F S4096x256 .f32) (main_arg2 : FVec F S256x256 .f32) (main_arg3 : FVec F S256x256 .f32) (main_arg4 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x256 : Shape := ⟨2, ![4096, 256]⟩
abbrev S256x256 : Shape := ⟨2, ![256, 256]⟩
abbrev S32x256 : Shape := ⟨2, ![32, 256]⟩
abbrev S32x1x256 : Shape := ⟨3, ![32, 1, 256]⟩
abbrev S1x256x256 : Shape := ⟨3, ![1, 256, 256]⟩
abbrev S32x256x256 : Shape := ⟨3, ![32, 256, 256]⟩

abbrev nBuf : Space → Nat
  | .hbm => 9
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S4096x256, .f32⟩
  | .local _ .vmem, ⟨0, _⟩ => ⟨S32x256, .f32⟩
  | .local _ .vmem, ⟨1, _⟩ => ⟨S32x256, .f32⟩
  | .local _ .vmem, ⟨2, _⟩ => ⟨S256x256, .f32⟩
  | .local _ .vmem, ⟨3, _⟩ => ⟨S256x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x256_S256x256_1_0 : S256x256.Transposes [1, 0] S256x256
  inb_S32x256_S32x256_0_0 : ∀ a, (![0, 0] : Fin 2 → Nat) a + S32x256.size a ≤ S32x256.size a
  h_S32x256 : 0 < S32x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S32x256_S32x1x256 : S32x256.ShapeCasts S32x1x256
  shapeCasts_S256x256_S1x256x256 : S256x256.ShapeCasts S1x256x256
  broadcasts_S32x1x256_S32x256x256 : S32x1x256.Broadcasts S32x256x256
  broadcasts_S1x256x256_S32x256x256 : S1x256x256.Broadcasts S32x256x256
  reduces_S32x256x256_S32x256 : S32x256x256.Reduces [2] S32x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S4096x256.size a
  hwx0_0 : ∀ i : grid0.Coords, EltTy.bits .f32 = 32 ∨ (Rect.block (s := S4096x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S4096x256.size a
  hwx0_3 : ∀ i : grid0.Coords, EltTy.bits .f32 = 32 ∨ (Rect.block (s := S4096x256) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S4096x256.size a
  hwx0_4 : ∀ i : grid0.Coords, EltTy.bits .f32 = 32 ∨ (Rect.block (s := S4096x256) S32x256.size (cc0_transform_4 i) (hinb0_4 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256x256x1 : Shape := ⟨3, ![256, 256, 1]⟩
abbrev S256x4096 : Shape := ⟨2, ![256, 4096]⟩
abbrev S256x1x4096 : Shape := ⟨3, ![256, 1, 4096]⟩
abbrev S256x256x4096 : Shape := ⟨3, ![256, 256, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256x1, .f32⟩
  | .hbm, ⟨6, _⟩ => ⟨S256x4096, .f32⟩
  | .hbm, ⟨7, _⟩ => ⟨S256x1x4096, .f32⟩
  | .hbm, ⟨8, _⟩ => ⟨S256x256x4096, .f32⟩
  | .hbm, ⟨9, _⟩ => ⟨S256x256x4096, .f32⟩
  | .hbm, ⟨10, _⟩ => ⟨S256x256x4096, .f32⟩
  | .hbm, ⟨11, _⟩ => ⟨S256x256, .f32⟩
  | .hbm, ⟨12, _⟩ => ⟨S256x256x1, .f32⟩
  | .hbm, ⟨13, _⟩ => ⟨S256x256x4096, .f32⟩
  | .hbm, ⟨14, _⟩ => ⟨S256x256x4096, .f32⟩
  | .hbm, ⟨15, _⟩ => ⟨S_, .f32⟩
  | .hbm, ⟨16, _⟩ => ⟨S256x4096, .f32⟩
  | .hbm, ⟨17, _⟩ => ⟨S256x4096, .f32⟩
  | .hbm, ⟨18, _⟩ => ⟨S256x4096, .f32⟩
  | .hbm, ⟨19, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S256x256_S256x256x1_0_1 : S256x256.BroadcastsInDim S256x256x1 (![0, 1] : Fin 2 → Fin S256x256x1.rank)
  transposes_S4096x256_S256x4096_1_0 : S4096x256.Transposes [1, 0] S256x4096
  bcast_S256x4096_S256x1x4096_0_2 : S256x4096.BroadcastsInDim S256x1x4096 (![0, 2] : Fin 2 → Fin S256x1x4096.rank)
  bcast_S256x256x1_S256x256x4096_0_1_2 : S256x256x1.BroadcastsInDim S256x256x4096 (![0, 1, 2] : Fin 3 → Fin S256x256x4096.rank)
  bcast_S256x1x4096_S256x256x4096_0_1_2 : S256x1x4096.BroadcastsInDim S256x256x4096 (![0, 1, 2] : Fin 3 → Fin S256x256x4096.rank)
  reducesTo_S256x256x4096_S256x4096_d0 : S256x256x4096.ReducesTo [0] S256x4096
  h_S_ : 0 < S_.numel
  transposes_S256x4096_S4096x256_1_0 : S256x4096.Transposes [1, 0] S4096x256

variable [Facts₀]

class Facts : Prop extends Facts₀ where

variable [Facts]
-- ==== Proof.KernelBlock.lean ====
/-
  What one grid point leaves in its output block, index by index.

  A point holds 32 rows of `x0` (a block `X`, rows by layers), the two parameter arrays transposed (`Wt[j, a] = W[a, j]` and
  `Ht[j, a] = B[a, j] + C[a, j]`, units by layers) and 32 rows of `x1` (a block `Y`). It broadcasts `X` along a new unit axis and
  `Wt`, `Ht` along a new row axis to `[row, unit, layer]`, forms `X[r, a] * Wt[j, a] + Ht[j, a]` there, takes the maximum over the last
  (layer) axis from `-∞` and then the larger of that and `Y[r, j]`. So at `(r, j)` the block holds the fold of `max` over the layers `a` of
  `X[r, a] * Wt[j, a] + Ht[j, a]`, and `max` with `Y[r, j]`.
-/
import proofs.«135412_j47888885350936_1_alg».proof.Proof.KernelIdealValue
import Idealize.ShloMosaic.PureOps.Ideal.Laws
import Idealize.ShloMosaic.Lib.ValueIdx
import Idealize.ShloMosaic.Lib.ValueLayout

noncomputable section

namespace Cert.KernelIdeal.Block

open Cert.KernelIdeal Cert.KernelIdeal.Gen Cert.KernelIdeal.ValueP
open Idealize.ShloMosaic Idealize.ShloMosaic.ValueIdx

/-- A maximum over the last axis of a `[row, unit, layer]` array, from `-∞`, read at `(r, j)`: the fold of `max` over the layers. -/
theorem rowMax_at (src : FVec Ideal S32x256x256 .f32) (r : Fin 32) (j : Fin 256) :
    multiReduction .maximumf [2] S32x256 src 0xFF800000#32 reduces_S32x256x256_S32x256 (.inl rfl) rfl (ix2 r j)
      = (Finset.univ : Finset (Fin 256)).fold max (Ideal.ofBits .f32 0xFF800000#32) (fun a => src (ix3 r j a)) := by
  refine (Ideal.multiReduction_maximumf_single src 0xFF800000#32 reduces_S32x256x256_S32x256 (.inl rfl) rfl (ix2 r j)).trans ?_
  show (Finset.univ : Finset (Fin 256)).fold max (Ideal.ofBits .f32 0xFF800000#32)
      (fun a => src (reduces_S32x256x256_S32x256.lift (ix2 r j) a)) = _
  exact Finset.fold_congr fun (a : Fin 256) _ => congrArg src (funext fun d => match d with
    | ⟨0, _⟩ => rfl
    | ⟨1, _⟩ => rfl
    | ⟨2, _⟩ => rfl)

/-- The row block broadcast along the unit axis, read at `(r, j, a)`, is the block at `(r, a)`. -/
theorem rows_at (X : FVec Ideal S32x256 .f32) (r : Fin 32) (j a : Fin 256) :
    broadcastTo S32x256x256 (shapeCast S32x1x256 X shapeCasts_S32x256_S32x1x256) broadcasts_S32x1x256_S32x256x256 (ix3 r j a)
      = X (ix2 r a) := by
  refine (broadcastTo_apply _ broadcasts_S32x1x256_S32x256x256 (ix3 r j a) (ix3 r (0 : Fin 1) a) (fun d => match d with
    | ⟨0, _⟩ => by show r.val = if (32 : Nat) = 1 then 0 else r.val; rw [if_neg (by decide)]
    | ⟨1, _⟩ => by show 0 = if (1 : Nat) = 1 then 0 else j.val; rw [if_pos rfl]
    | ⟨2, _⟩ => by show a.val = if (256 : Nat) = 1 then 0 else a.val; rw [if_neg (by decide)])).trans ?_
  refine shapeCast_apply X shapeCasts_S32x256_S32x1x256 (ix3 r (0 : Fin 1) a) (ix2 r a) ?_
  rw [Shape.rowMajor_val_two, Shape.rowMajor_val_three]
  show r.val * 256 + a.val = (r.val * 1 + 0) * 256 + a.val
  omega

/-- A parameter array broadcast along the row axis, read at `(r, j, a)`, is the array at `(j, a)`. -/
theorem params_at (P : FVec Ideal S256x256 .f32) (r : Fin 32) (j a : Fin 256) :
    broadcastTo S32x256x256 (shapeCast S1x256x256 (shapeCast S256x256 P shapeCasts_S256x256_S256x256) shapeCasts_S256x256_S1x256x256)
        broadcasts_S1x256x256_S32x256x256 (ix3 r j a)
      = P (ix2 j a) := by
  rw [shapeCast_self]
  refine (broadcastTo_apply _ broadcasts_S1x256x256_S32x256x256 (ix3 r j a) (ix3 (0 : Fin 1) j a) (fun d => match d with
    | ⟨0, _⟩ => by show 0 = if (1 : Nat) = 1 then 0 else r.val; rw [if_pos rfl]
    | ⟨1, _⟩ => by show j.val = if (256 : Nat) = 1 then 0 else j.val; rw [if_neg (by decide)]
    | ⟨2, _⟩ => by show a.val = if (256 : Nat) = 1 then 0 else a.val; rw [if_neg (by decide)])).trans ?_
  exact shapeCast_ab_1ab_apply P shapeCasts_S256x256_S1x256x256 (0 : Fin 1) j a

/-- The block a point leaves, at `(r, j)`: the best of the 256 values `X[r, a] * Wt[j, a] + Ht[j, a]`, or `Y[r, j]` if that is larger. -/
theorem block_at (X : FVec Ideal S32x256 .f32) (Wt Ht : FVec Ideal S256x256 .f32) (Y : FVec Ideal S32x256 .f32)
    (r : Fin 32) (j : Fin 256) :
    E4 (F := Ideal) X Wt Ht Y (ix2 r j)
      = max ((Finset.univ : Finset (Fin 256)).fold max (Ideal.ofBits .f32 0xFF800000#32)
          (fun a => X (ix2 r a) * Wt (ix2 j a) + Ht (ix2 j a))) (Y (ix2 r j)) := by
  have e0 : ix4_0 (ix2 r j) = ix2 r j := funext fun d => match d with | ⟨0, _⟩ => rfl | ⟨1, _⟩ => rfl
  have e1 : ix4_1 (ix2 r j) = ix2 r j := funext fun d => match d with | ⟨0, _⟩ => rfl | ⟨1, _⟩ => rfl
  unfold E4
  rw [e0, e1]
  refine congrArg (fun z => max z (Y (ix2 r j))) ((rowMax_at _ r j).trans (Finset.fold_congr fun (a : Fin 256) _ => ?_))
  show broadcastTo S32x256x256 (shapeCast S32x1x256 X shapeCasts_S32x256_S32x1x256) broadcasts_S32x1x256_S32x256x256 (ix3 r j a)
        * broadcastTo S32x256x256 (shapeCast S1x256x256 (shapeCast S256x256 Wt shapeCasts_S256x256_S256x256) shapeCasts_S256x256_S1x256x256)
            broadcasts_S1x256x256_S32x256x256 (ix3 r j a)
      + broadcastTo S32x256x256 (shapeCast S1x256x256 (shapeCast S256x256 Ht shapeCasts_S256x256_S256x256) shapeCasts_S256x256_S1x256x256)
            broadcasts_S1x256x256_S32x256x256 (ix3 r j a) = _
  rw [rows_at, params_at, params_at]

end Cert.KernelIdeal.Block

end
-- ==== Proof.LayerMax.lean ====
/-
  What both programs compute, as one function of the five argument arrays, index by index, on the extended reals.

  There are 256 "layers" `a`. Layer `a` answers row `k` and output unit `j` with the affine value
  `x0[k, a] * W[a, j] + (B[a, j] + C[a, j])`, and the result at `(k, j)` is the largest of the 256 answers and of
  `x1[k, j]`: the maximum over the layers is a fold of `max` from `-∞` (the value of the word `0xFF800000`), and `max` on the
  extended reals is commutative and associative, so the fold does not depend on the order in which the layers are visited.
-/
import Idealize.ShloMosaic.PureOps.Ideal
import Idealize.ShloMosaic.Lib.ValueIdx

noncomputable section

namespace Cert.LayerMax

open Idealize.ShloMosaic Idealize.ShloMosaic.ValueIdx

/-- The shape of `x0`, `x1` and of the result: 4096 rows of 256 units. -/
abbrev Rows : Shape := ⟨2, ![4096, 256]⟩
/-- The shape of the three parameter arrays: layer by unit. -/
abbrev Params : Shape := ⟨2, ![256, 256]⟩

/-- Layer `a`'s answer for row `k` and unit `j`: `x0[k, a] * W[a, j] + (B[a, j] + C[a, j])`. -/
def response (x0 : Rows.Idx → EReal) (C W B : Params.Idx → EReal) (k : Fin 4096) (j : Fin 256) (a : Fin 256) : EReal :=
  x0 (ix2 k a) * W (ix2 a j) + (B (ix2 a j) + C (ix2 a j))

/-- The largest answer over the 256 layers, from `-∞`. -/
def best (x0 : Rows.Idx → EReal) (C W B : Params.Idx → EReal) (k : Fin 4096) (j : Fin 256) : EReal :=
  (Finset.univ : Finset (Fin 256)).fold max (Ideal.ofBits .f32 0xFF800000#32) (response x0 C W B k j)

/-- The result: at `(k, j)` the larger of the best layer's answer and `x1[k, j]`. -/
def layerMax (x0 x1 : Rows.Idx → EReal) (C W B : Params.Idx → EReal) : Rows.Idx → EReal :=
  fun i => max (best x0 C W B (i 0) (i 1)) (x1 i)

/-- The result at the index with coordinates `(k, j)`. -/
theorem layerMax_ix2 (x0 x1 : Rows.Idx → EReal) (C W B : Params.Idx → EReal) (k : Fin 4096) (j : Fin 256) :
    layerMax x0 x1 C W B (ix2 k j) = max (best x0 C W B k j) (x1 (ix2 k j)) := rfl

end Cert.LayerMax

end
-- ==== Proof.KernelArray.lean ====
/-
  From the blocks to the whole array: after the kernel has run, its output array is `layerMax` of the argument arrays.

  The grid has 128 points. Point `t` reads rows `32 t … 32 t + 31` of `x0` and of `x1` and the whole of two arrays the host prepared
  before the launch — `W` transposed, and `B + C` transposed — and writes rows `32 t … 32 t + 31` of the output. The block it leaves at
  `(r, j)` is the fold of `max` over the layers `a` of `x0[32 t + r, a] * W[a, j] + (B[a, j] + C[a, j])` and then `max` with `x1[32 t + r, j]`, which is
  `layerMax` at `(32 t + r, j)`: the block of `layerMax` under the window. Row `i` of the array is in the block of point `i / 32`, so the
  blocks cover the array and the array ends as `layerMax`.
-/
import proofs.«135412_j47888885350936_1_alg».proof.Proof.KernelBlock
import proofs.«135412_j47888885350936_1_alg».proof.Proof.LayerMax
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.ValueP Cert.KernelIdeal.Block Cert.LayerMax
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The argument arrays, at their literal types -/

/-- `x0` as launched: rows by layers. -/
abbrev x0arr (c : Dev nD) : FVec Ideal S4096x256 .f32 := m ((c : Thread nD τ).loc main_arg0)
/-- `x1` as launched: rows by units. -/
abbrev x1arr (c : Dev nD) : FVec Ideal S4096x256 .f32 := m ((c : Thread nD τ).loc main_arg1)
/-- `C` as launched: layers by units. -/
abbrev carr (c : Dev nD) : FVec Ideal S256x256 .f32 := m ((c : Thread nD τ).loc main_arg2)
/-- `W` as launched: layers by units. -/
abbrev warr (c : Dev nD) : FVec Ideal S256x256 .f32 := m ((c : Thread nD τ).loc main_arg3)
/-- `B` as launched: layers by units. -/
abbrev barr (c : Dev nD) : FVec Ideal S256x256 .f32 := m ((c : Thread nD τ).loc main_arg4)

/-! ## The two arrays the host prepares -/

/-- A transposed parameter array at `(j, a)` is the array at `(a, j)`. -/
theorem transpose_at (P : FVec Ideal S256x256 .f32) (j a : Fin 256) :
    transpose S256x256 [1, 0] P transposes_S256x256_S256x256_1_0 (ix2 j a) = P (ix2 a j) :=
  transpose_apply [1, 0] P transposes_S256x256_S256x256_1_0 (ix2 j a) (ix2 a j) (fun b => match b with
    | ⟨0, _⟩ => rfl
    | ⟨1, _⟩ => rfl)

/-- When the region is entered, the second window's array is `W` transposed. -/
theorem weights_entry (c : Dev nD) :
    (V m c main_v0 : S256x256.Idx → EReal)
      = transpose S256x256 [1, 0] (warr m c) transposes_S256x256_S256x256_1_0 := by
  dsimp only [V, hostOps0]; after_results

/-- When the region is entered, the third window's array is `B + C` transposed. -/
theorem offsets_entry (c : Dev nD) :
    (V m c main_v2 : S256x256.Idx → EReal)
      = transpose S256x256 [1, 0] (addf (barr m c) (carr m c)) transposes_S256x256_S256x256_1_0 := by
  dsimp only [V, hostOps0]; after_results

/-! ## Where each window's block sits -/

/-- The printed index maps over the grid: the row windows (of `x0`, `x1` and the output) are at block row `t`, the parameter windows do not move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- Row `r` of point `t`'s blocks is row `32 t + r` of the arrays. -/
def row (t : Fin cfg0.N) (r : Fin 32) : Fin 4096 := ⟨t.val * 32 + r.val, by have := point_lt t; have := r.isLt; omega⟩

/-- The block of `x0` at point `t`, at `(r, a)`. -/
theorem x0_block_at (c : Dev nD) (t : Fin cfg0.N) (r : Fin 32) (a : Fin 256) :
    iblk m c 0 t (ix2 r a) = x0arr m c (ix2 (row t r) a) := by
  obtain ⟨e0, e1, -⟩ := index_facts t
  show V m c main_arg0 (((cfg0.win 0).blk t).view.emb (ix2 r a)) = _
  rw [V_main_arg0]
  refine congrArg _ (funext fun d => Fin.ext ?_)
  match d with
  | ⟨0, _⟩ => show win0_0.index t (0 : Fin 2) * 32 + 1 * r.val = t.val * 32 + r.val; omega
  | ⟨1, _⟩ => show win0_0.index t (1 : Fin 2) * 256 + 1 * a.val = a.val; omega

/-- The block of `x1` at point `t`, at `(r, j)`. -/
theorem x1_block_at (c : Dev nD) (t : Fin cfg0.N) (r : Fin 32) (j : Fin 256) :
    iblk m c 3 t (ix2 r j) = x1arr m c (ix2 (row t r) j) := by
  obtain ⟨-, -, -, -, -, -, e0, e1, -⟩ := index_facts t
  show V m c main_arg1 (((cfg0.win 3).blk t).view.emb (ix2 r j)) = _
  rw [V_main_arg1]
  refine congrArg _ (funext fun d => Fin.ext ?_)
  match d with
  | ⟨0, _⟩ => show win0_3.index t (0 : Fin 2) * 32 + 1 * r.val = t.val * 32 + r.val; omega
  | ⟨1, _⟩ => show win0_3.index t (1 : Fin 2) * 256 + 1 * j.val = j.val; omega

/-- The transposed weights' block (the whole array) at `(j, a)` is `W[a, j]`. -/
theorem weights_block_at (c : Dev nD) (t : Fin cfg0.N) (j a : Fin 256) :
    iblk m c 1 t (ix2 j a) = warr m c (ix2 a j) := by
  obtain ⟨-, -, e0, e1, -⟩ := index_facts t
  show (V m c main_v0 : S256x256.Idx → EReal) (((cfg0.win 1).blk t).view.emb (ix2 j a)) = _
  rw [weights_entry]
  refine Eq.trans (congrArg _ (funext fun d => Fin.ext ?_)) (transpose_at _ j a)
  match d with
  | ⟨0, _⟩ => show win0_1.index t (0 : Fin 2) * 256 + 1 * j.val = j.val; omega
  | ⟨1, _⟩ => show win0_1.index t (1 : Fin 2) * 256 + 1 * a.val = a.val; omega

/-- The transposed offsets' block (the whole array) at `(j, a)` is `B[a, j] + C[a, j]`. -/
theorem offsets_block_at (c : Dev nD) (t : Fin cfg0.N) (j a : Fin 256) :
    iblk m c 2 t (ix2 j a) = barr m c (ix2 a j) + carr m c (ix2 a j) := by
  obtain ⟨-, -, -, -, e0, e1, -⟩ := index_facts t
  show (V m c main_v2 : S256x256.Idx → EReal) (((cfg0.win 2).blk t).view.emb (ix2 j a)) = _
  rw [offsets_entry]
  refine Eq.trans (congrArg _ (funext fun d => Fin.ext ?_)) (transpose_at _ j a)
  match d with
  | ⟨0, _⟩ => show win0_2.index t (0 : Fin 2) * 256 + 1 * j.val = j.val; omega
  | ⟨1, _⟩ => show win0_2.index t (1 : Fin 2) * 256 + 1 * a.val = a.val; omega

/-! ## One point's block -/

/-- What the body leaves in the output's buffer, for any blocks, at `(r, j)`. -/
theorem body_at (X : FVec Ideal S32x256 .f32) (Wt Ht : FVec Ideal S256x256 .f32) (Y : FVec Ideal S32x256 .f32)
    (r : Fin 32) (j : Fin 256) :
    out0_4 (F := Ideal) X Wt Ht Y (ix2 r j)
      = max ((Finset.univ : Finset (Fin 256)).fold max (Ideal.ofBits .f32 0xFF800000#32)
          (fun a => X (ix2 r a) * Wt (ix2 j a) + Ht (ix2 j a))) (Y (ix2 r j)) := by
  unfold out0_4
  rw [canon4_eq]
  simp only [View.ld_unit_zero (S := S32x256) zero_offsets, View.ld_unit_zero (S := S256x256) zero_offsets]
  exact block_at X Wt Ht Y r j

/-- What point `t` leaves at `(r, j)` is `layerMax` of the arguments at row `32 t + r`, unit `j`. -/
theorem point_at (c : Dev nD) (t : Fin cfg0.N) (r : Fin 32) (j : Fin 256) :
    out0_4 (F := Ideal) (iblk m c 0 t) (iblk m c 1 t) (iblk m c 2 t) (iblk m c 3 t) (ix2 r j)
      = layerMax (x0arr m c) (x1arr m c) (carr m c) (warr m c) (barr m c) (ix2 (row t r) j) := by
  refine (body_at (iblk m c 0 t) (iblk m c 1 t) (iblk m c 2 t) (iblk m c 3 t) r j).trans ?_
  rw [layerMax_ix2, x1_block_at]
  refine congrArg (fun z => max z (x1arr m c (ix2 (row t r) j))) ?_
  unfold best
  refine Finset.fold_congr fun (a : Fin 256) _ => ?_
  rw [x0_block_at, weights_block_at, offsets_block_at]
  rfl

/-- What point `t` writes back is block `t` of `layerMax` of the arguments. -/
theorem flushed_eq (c : Dev nD) (t : Fin cfg0.N) :
    (dats m 0 c).flushed 4 t
      = ((cfg0.win 4).blk t).view.read (Elt Ideal)
          (layerMax (x0arr m c) (x1arr m c) (carr m c) (warr m c) (barr m c)) := by
  rw [flushed4]
  funext y
  obtain ⟨r, j, rfl⟩ : ∃ (r : Fin 32) (j : Fin 256), y = ix2 r j := ⟨y 0, y 1, @eq_ix2 32 256 y⟩
  obtain ⟨-, -, -, -, -, -, -, -, e0, e1⟩ := index_facts t
  show out0_4 (F := Ideal) (iblk m c 0 t) (iblk m c 1 t) (iblk m c 2 t) (iblk m c 3 t) (ix2 r j)
      = layerMax (x0arr m c) (x1arr m c) (carr m c) (warr m c) (barr m c) (((cfg0.win 4).blk t).view.emb (ix2 r j))
  refine (point_at m c t r j).trans (congrArg _ (funext fun d => Fin.ext ?_))
  match d with
  | ⟨0, _⟩ => show t.val * 32 + r.val = win0_4.index t (0 : Fin 2) * 32 + 1 * r.val; omega
  | ⟨1, _⟩ => show j.val = win0_4.index t (1 : Fin 2) * 256 + 1 * j.val; omega

/-! ## The blocks cover the array -/

/-- An index of the output array is in point `t`'s block iff each coordinate is in the block's range on its axis. -/
theorem mem_block (t : Fin cfg0.N) (i : S4096x256.Idx) :
    i ∈ ((cfg0.win 4).blk t).view.set ↔ ∀ a : Fin 2, win0_4.index t a * S32x256.size a ≤ (i a).val
      ∧ (i a).val < win0_4.index t a * S32x256.size a + S32x256.size a := by
  show i ∈ ((View.whole main_v3).slice (win0_4.rect t)).set ↔ _
  rw [View.set_slice_whole, Rect.mem_set_unit]
  exact Iff.rfl

/-- Row `i` is in the block of point `i / 32`. -/
theorem covered (i : S4096x256.Idx) :
    ∃ t : Fin cfg0.N, (cfg0.win 4).flush t = true ∧ i ∈ ((cfg0.win 4).blk t).view.set := by
  have hi0 : (i 0).val < 4096 := (i 0).isLt
  have hi1 : (i 1).val < 256 := (i 1).isLt
  obtain ⟨t, ht⟩ : ∃ t : Fin cfg0.N, t.val = (i 0).val / 32 :=
    ⟨⟨(i 0).val / 32, by rw [show cfg0.N = 128 from N_0]; omega⟩, rfl⟩
  obtain ⟨-, -, -, -, -, -, -, -, e0, e1⟩ := index_facts t
  refine ⟨t, flush0_4 t, ?_⟩
  rw [mem_block]
  intro a
  match a with
  | ⟨0, _⟩ =>
    show win0_4.index t (0 : Fin 2) * 32 ≤ (i 0).val ∧ (i 0).val < win0_4.index t (0 : Fin 2) * 32 + 32
    omega
  | ⟨1, _⟩ =>
    show win0_4.index t (1 : Fin 2) * 256 ≤ (i 1).val ∧ (i 1).val < win0_4.index t (1 : Fin 2) * 256 + 256
    omega

/-! ## The array after the run, and the run -/

/-- The output array after the last point is `layerMax` of the arguments. -/
theorem final (c : Dev nD) :
    (dats m 0 c).arrAt 4 cfg0.N
      = layerMax (x0arr m c) (x1arr m c) (carr m c) (warr m c) (barr m c) :=
  (dats m 0 c).arrAt_eq_of_cover 4 _ (fun t _ => flushed_eq m c t) covered

/-- Every weakly fair execution of the kernel's program ends with the result array at `layerMax` of the arguments and the arguments unchanged. -/
theorem run : θ_run defs (onTc (τ := τ) (main (F := Ideal))) ⟨m, fun _ => 0, ρ⟩ fun r => ∀ c : Dev nD,
      r.2.mem ((c : Thread nD τ).loc main_v3)
        = layerMax (x0arr m c) (x1arr m c) (carr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.ReferenceIsLayerMax.lean ====
/-
  The reference's result is `layerMax` of its arguments.

  The reference lays the work out as a `[layer, unit, row]` array: it transposes `x0` to `[layer, row]`, broadcasts it and `W` and
  `B + C` (each `[layer, unit]`) to that rank-3 shape, forms `W[a, j] * x0[k, a] + (B[a, j] + C[a, j])` at `(a, j, k)`, takes the maximum over the
  leading (layer) axis from `-∞`, takes the larger of that and `x1` transposed, and transposes back. Read at the result index `(k, j)`
  this is: the fold of `max` over the layers `a` of the array at `(a, j, k)`, then `max` with `x1[k, j]`. The one algebraic step is that the
  product is written in the other order, which on the extended reals is the same number.
-/
import proofs.«135412_j47888885350936_1_alg».proof.Proof.Gen.ReferenceIdeal.Read
import proofs.«135412_j47888885350936_1_alg».proof.Proof.LayerMax
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.LayerMax
open Idealize.ShloMosaic Idealize.ShloMosaic.ValueIdx

/-- The reduction over the layer axis drops axis 0 of the `[layer, unit, row]` shape. -/
theorem reduces_layers : S256x256x4096.Reduces [0] S256x4096 := by decide

/-- The source index over the result index `(j, k)` with layer `a` inserted on the dropped axis is `(a, j, k)`. -/
theorem lift_layer (j : Fin 256) (k : Fin 4096) (a : Fin 256) :
    reduces_layers.lift (ix2 j k) a = ix3 a j k :=
  funext fun d => match d with
    | ⟨0, _⟩ => rfl
    | ⟨1, _⟩ => rfl
    | ⟨2, _⟩ => rfl

/-- The array the reference reduces, read at `(a, j, k)`: layer `a`'s answer for row `k` and unit `j`. -/
theorem answers_at (x0 : FVec Ideal S4096x256 .f32) (x2 x3 x4 : FVec Ideal S256x256 .f32) (a j : Fin 256) (k : Fin 4096) :
    val_main_v9 (F := Ideal) x0 x2 x3 x4 (ix3 a j k) = response x0 x2 x3 x4 k j a := by
  rw [val_main_v9_apply, val_main_v5_apply, val_main_v3_apply, val_main_v0_apply, val_main_v4_apply, val_main_v2_apply,
    val_main_v1_apply, val_main_v8_apply, val_main_v7_apply, val_main_v6_apply]
  have eW : idx_main_v0 (idx_main_v3 (ix3 a j k)) = ix2 a j :=
    funext fun d => match d with | ⟨0, _⟩ => rfl | ⟨1, _⟩ => rfl
  have eX : idx_main_v1 (idx_main_v2 (idx_main_v4 (ix3 a j k))) = ix2 k a :=
    funext fun d => match d with | ⟨0, _⟩ => rfl | ⟨1, _⟩ => rfl
  have eB : idx_main_v7 (idx_main_v8 (ix3 a j k)) = ix2 a j :=
    funext fun d => match d with | ⟨0, _⟩ => rfl | ⟨1, _⟩ => rfl
  rw [eW, eX, eB]
  show x3 (ix2 a j) * x0 (ix2 k a) + (x4 (ix2 a j) + x2 (ix2 a j)) = x0 (ix2 k a) * x3 (ix2 a j) + (x4 (ix2 a j) + x2 (ix2 a j))
  rw [mul_comm]

/-- The reference's result, as the stage the generated reading names, is `layerMax`. -/
theorem reference_eq (x0 x1 : FVec Ideal S4096x256 .f32) (x2 x3 x4 : FVec Ideal S256x256 .f32) :
    val_main_v13 (F := Ideal) x0 x1 x2 x3 x4 = layerMax x0 x1 x2 x3 x4 := by
  funext i
  obtain ⟨k, j, rfl⟩ : ∃ (k : Fin 4096) (j : Fin 256), i = ix2 k j := ⟨i 0, i 1, eq_ix2 i⟩
  rw [val_main_v13_apply, val_main_v12_apply, val_main_v11_apply, layerMax_ix2]
  have e13 : idx_main_v13 (ix2 k j) = ix2 j k :=
    funext fun d => match d with | ⟨0, _⟩ => rfl | ⟨1, _⟩ => rfl
  have e11 : idx_main_v11 (ix2 j k) = ix2 k j :=
    funext fun d => match d with | ⟨0, _⟩ => rfl | ⟨1, _⟩ => rfl
  rw [e13, e11]
  show max (val_main_v10 (F := Ideal) x0 x2 x3 x4 (ix2 j k)) (x1 (ix2 k j)) = max (best x0 x2 x3 x4 k j) (x1 (ix2 k j))
  refine congrArg (fun z => max z (x1 (ix2 k j))) ?_
  unfold val_main_v10
  refine (Host.reduce_eq_fold_single _ _ _ reducesTo_S256x256x4096_S256x4096_d0 reduces_layers h_S_ (ix2 j k)).trans ?_
  show (Finset.univ : Finset (Fin 256)).fold max (Ideal.ofBits .f32 0xFF800000#32)
      (fun a => val_main_v9 (F := Ideal) x0 x2 x3 x4 (reduces_layers.lift (ix2 j k) a)) = best x0 x2 x3 x4 k j
  unfold best
  exact Finset.fold_congr fun (a : Fin 256) _ =>
    (congrArg (val_main_v9 (F := Ideal) x0 x2 x3 x4) (lift_layer j k a)).trans (answers_at x0 x2 x3 x4 a j k)

end Cert.ReferenceIdeal.RefValue

end
-- ==== Proof.lean ====
/-
  The kernel and its reference compute one function of the five argument arrays on the extended reals:

      out[k, j] = max ( max over the 256 layers a of ( x0[k, a] * W[a, j] + (B[a, j] + C[a, j]) ),  x1[k, j] ),

  the maximum over the layers taken from `-∞` (`Cert.LayerMax.layerMax`, Proof/LayerMax.lean).

  The kernel works on 32 rows at a time against `W` and `B + C` transposed by the host, with the layers on the last axis of a
  `[row, unit, layer]` array (Proof/KernelBlock.lean reads one point's block at an index; Proof/KernelArray.lean reads each input block off the
  argument arrays, shows the 128 blocks cover the output and states the run). The reference builds the `[layer, unit, row]` array of
  all answers, with the product in the other order, reduces over its leading axis and transposes (Proof/ReferenceIsLayerMax.lean). The only
  algebra between the two is that multiplication of extended reals commutes and that a fold of `max` over a finite set does not depend on the
  order, so no finiteness of the inputs is used. The idealization rewrote nothing in the kernel, so there is nothing to preserve.
-/
import proofs.«135412_j47888885350936_1_alg».proof.Defs
import proofs.«135412_j47888885350936_1_alg».proof.Proof.Gen.Kernel
import proofs.«135412_j47888885350936_1_alg».proof.Proof.Gen.Kernel.Skeleton
import proofs.«135412_j47888885350936_1_alg».proof.Proof.Gen.Kernel.Launch
import proofs.«135412_j47888885350936_1_alg».proof.Proof.Gen.Kernel.Points
import proofs.«135412_j47888885350936_1_alg».proof.Proof.Gen.Kernel.Frame
import proofs.«135412_j47888885350936_1_alg».proof.Proof.Gen.KernelIdeal
import proofs.«135412_j47888885350936_1_alg».proof.Proof.Gen.KernelIdeal.Skeleton
import proofs.«135412_j47888885350936_1_alg».proof.Proof.Gen.KernelIdeal.Launch
import proofs.«135412_j47888885350936_1_alg».proof.Proof.Gen.KernelIdeal.Points
import proofs.«135412_j47888885350936_1_alg».proof.Proof.Gen.KernelIdeal.Frame
import proofs.«135412_j47888885350936_1_alg».proof.Proof.Gen.ReferenceIdeal
import proofs.«135412_j47888885350936_1_alg».proof.Proof.Gen.Pre_finite_inputs
import proofs.«135412_j47888885350936_1_alg».proof.Proof.KernelIdealValue
import proofs.«135412_j47888885350936_1_alg».proof.Proof.Gen.ReferenceIdeal.Run
import proofs.«135412_j47888885350936_1_alg».proof.Proof.Gen.ReferenceIdeal.Read
import proofs.«135412_j47888885350936_1_alg».proof.Proof.KernelArray
import proofs.«135412_j47888885350936_1_alg».proof.Proof.ReferenceIsLayerMax
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `layerMax` of the arguments: the kernel by its blocks, the reference by its stages read at an index. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
